-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : FVec F S16384 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S512x1 : Shape := ⟨2, ![512, 1]⟩
abbrev S1x2048 : Shape := ⟨2, ![1, 2048]⟩
abbrev S512x2048 : Shape := ⟨2, ![512, 2048]⟩
abbrev S512 : Shape := ⟨1, ![512]⟩

abbrev nBuf : Space → Nat
  | .hbm => 21
  | .vmem => 9
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S_, .f32⟩
  | .hbm, ⟨4, _⟩ => ⟨S16384, .f32⟩
  | .hbm, ⟨5, _⟩ => ⟨S16384, .i1⟩
  | .hbm, ⟨6, _⟩ => ⟨S16384, .f32⟩
  | .hbm, ⟨7, _⟩ => ⟨S16384, .f32⟩
  | .hbm, ⟨8, _⟩ => ⟨S16384x1, .f32⟩
  | .hbm, ⟨9, _⟩ => ⟨S1x16384, .f32⟩
  | .hbm, ⟨10, _⟩ => ⟨S1x16384, .f32⟩
  | .hbm, ⟨11, _⟩ => ⟨S16384x1, .f32⟩
  | .hbm, ⟨12, _⟩ => ⟨S16384, .f32⟩
  | .hbm, ⟨13, _⟩ => ⟨S16384, .f32⟩
  | .hbm, ⟨14, _⟩ => ⟨S16384, .f32⟩
  | .hbm, ⟨15, _⟩ => ⟨S16384, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16384 : S_.BroadcastsInDim S16384 (![] : Fin 0 → Fin S16384.rank)
  shapeCasts_S16384_S16384x1 : S16384.ShapeCasts S16384x1
  shapeCasts_S16384_S1x16384 : S16384.ShapeCasts S1x16384
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  broadcasts_S512x1_S512x2048 : S512x1.Broadcasts S512x2048
  natLt_1_32 : 1 < 32
  reduces_S512x2048_S512 : S512x2048.Reduces [1] S512
  shapeCasts_S512_S512x1 : S512.ShapeCasts S512x1
  shapeCasts_S16384x1_S16384 : S16384x1.ShapeCasts S16384
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S16384x1.size a
  hwx0_0 : ∀ i : grid0.Coords, EltTy.bits .f32 = 32 ∨ (Rect.block (s := S16384x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .f32 = 32 ∨ (Rect.block (s := S1x16384) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)

variable [Facts₀]

abbrev win0_0 : Pipeline.Window sig grid0 :=
  Pipeline.Window.ofSpec (Memref.whole main_v5) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384 : Shape := ⟨1, ![16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 27
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S_, .f32⟩
  | .hbm, ⟨4, _⟩ => ⟨S16384, .f32⟩
  | .hbm, ⟨5, _⟩ => ⟨S16384, .i1⟩
  | .hbm, ⟨6, _⟩ => ⟨S16384, .f32⟩
  | .hbm, ⟨7, _⟩ => ⟨S16384, .f32⟩
  | .hbm, ⟨8, _⟩ => ⟨S1x16384, .f32⟩
  | .hbm, ⟨9, _⟩ => ⟨S16384x1, .f32⟩
  | .hbm, ⟨10, _⟩ => ⟨S16384x16384, .f32⟩
  | .hbm, ⟨11, _⟩ => ⟨S16384x16384, .f32⟩
  | .hbm, ⟨12, _⟩ => ⟨S16384x16384, .i1⟩
  | .hbm, ⟨13, _⟩ => ⟨S16384x16384, .f32⟩
  | .hbm, ⟨14, _⟩ => ⟨S1x16384, .f32⟩
  | .hbm, ⟨15, _⟩ => ⟨S16384x16384, .f32⟩
  | .hbm, ⟨16, _⟩ => ⟨S16384x16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  reducesTo_S16384x16384_S16384_d1 : S16384x16384.ReducesTo [1] S16384
  h_S_ : 0 < S_.numel
  reducesTo_S16384_S_d0 : S16384.ReducesTo [0] S_

variable [Facts₀]

class Facts : Prop extends Facts₀ where

variable [Facts]
-- ==== Proof.Pieces.lean ====
/-
  What each control case of the body leaves behind, read as values. The body keeps a running total of the row block's
  risk sums in a scratch column: at the first point of a grid row it is reset to zero and read back, at every point the
  current block's partial sums are added to it, and at the last point of the grid row the total is copied to the output
  block. Each case's stores cover the whole column with one payload, so what the case leaves is that payload of the
  point's input blocks (and, but at the first point, of what the point before left).
-/
import proofs.«103979_j36077725286567_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a point that neither opens nor closes a row of the grid, the running total is left at its payload: the
    block's partial sums added to what the point before left. -/
theorem scratch_mid (c : Dev nD) (i : grid0.Coords) (a2 : Memref sig .tc .vmem S512x1 .f32) (h2 : a2.IsWhole)
    (a3 : Memref sig .tc .vmem S1x2048 .f32) (h3 : a3.IsWhole) (a4 : Memref sig .tc .vmem S1x2048 .f32) (h4 : a4.IsWhole)
    (a5 : Memref sig .tc .vmem S512x1 .f32) (h5 : a5.IsWhole) (a6 : Memref sig .tc .vmem S512x1 .f32) (h6 : a6.IsWhole)
    (hc0 : ¬cond0_0 i) (hc1 : ¬cond0_1 i)
    (x0 : Vec F S512x1 .f32) (x1 : Vec F S1x2048 .f32) (x2 : Vec F S1x2048 .f32) (xs : Vec F S512x1 .f32) :
    sout0_B_0 c i a2 h2 a3 h3 a4 h4 a5 h5 a6 h6 hc0 hc1 x0 x1 x2 xs = k0_pay2 x0 x1 x2 xs := by
  unfold sout0_B_0
  rw [View.read_writes_eq_canon _ _ _ (scover0_B_0 c i a2 h2 a3 h3 a4 h4 a5 h5 a6 h6 hc0 hc1 x0 x1 x2 xs)]
  unfold kernelRun0_B
  dsimp only
  sl_unfold_words
  rw [View.canon_unit_zero hz]
  simp only [View.readAt_eq_ld, h2.read_unread, h3.read_unread, h4.read_unread, h6.read_unread,
    View.ld_unit_zero (S := S512x1) hz, View.ld_unit_zero (S := S1x2048) hz]

/-- At the first point of a row of the grid the running total is reset to zero and read back before the block's
    partial sums are added: the payload over the zero block. -/
theorem scratch_first (c : Dev nD) (i : grid0.Coords) (a2 : Memref sig .tc .vmem S512x1 .f32) (h2 : a2.IsWhole)
    (a3 : Memref sig .tc .vmem S1x2048 .f32) (h3 : a3.IsWhole) (a4 : Memref sig .tc .vmem S1x2048 .f32) (h4 : a4.IsWhole)
    (a5 : Memref sig .tc .vmem S512x1 .f32) (h5 : a5.IsWhole) (a6 : Memref sig .tc .vmem S512x1 .f32) (h6 : a6.IsWhole)
    (hc0 : cond0_0 i) (hc1 : ¬cond0_1 i)
    (x0 : Vec F S512x1 .f32) (x1 : Vec F S1x2048 .f32) (x2 : Vec F S1x2048 .f32) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S512x1) hz, View.readCov_unit_zero (S := S512x1) _ hz]
  simp only [View.readAt_eq_ld, h2.read_unread, h3.read_unread, h4.read_unread, h6.read_unread,
    View.ld_unit_zero (S := S512x1) hz, View.ld_unit_zero (S := S1x2048) hz]

/-- At the last point of a row of the grid the running total is updated as at any later point, -/
theorem scratch_last (c : Dev nD) (i : grid0.Coords) (a2 : Memref sig .tc .vmem S512x1 .f32) (h2 : a2.IsWhole)
    (a3 : Memref sig .tc .vmem S1x2048 .f32) (h3 : a3.IsWhole) (a4 : Memref sig .tc .vmem S1x2048 .f32) (h4 : a4.IsWhole)
    (a5 : Memref sig .tc .vmem S512x1 .f32) (h5 : a5.IsWhole) (a6 : Memref sig .tc .vmem S512x1 .f32) (h6 : a6.IsWhole)
    (hc0 : ¬cond0_0 i) (hc1 : cond0_1 i)
    (x0 : Vec F S512x1 .f32) (x1 : Vec F S1x2048 .f32) (x2 : Vec F S1x2048 .f32) (xs : Vec F S512x1 .f32) :
    sout0_C_0 c i a2 h2 a3 h3 a4 h4 a5 h5 a6 h6 hc0 hc1 x0 x1 x2 xs = k0_pay2 x0 x1 x2 xs := by
  unfold sout0_C_0
  rw [View.read_writes_eq_canon _ _ _ (scover0_C_0 c i a2 h2 a3 h3 a4 h4 a5 h5 a6 h6 hc0 hc1 x0 x1 x2 xs)]
  unfold kernelRun0_C
  dsimp only
  sl_unfold_words
  rw [View.canon_unit_zero hz]
  simp only [View.readAt_eq_ld, h2.read_unread, h3.read_unread, h4.read_unread, h6.read_unread,
    View.ld_unit_zero (S := S512x1) hz, View.ld_unit_zero (S := S1x2048) hz]

/-- and the output block is the updated running total, read back. -/
theorem out_last (c : Dev nD) (i : grid0.Coords) (a2 : Memref sig .tc .vmem S512x1 .f32) (h2 : a2.IsWhole)
    (a3 : Memref sig .tc .vmem S1x2048 .f32) (h3 : a3.IsWhole) (a4 : Memref sig .tc .vmem S1x2048 .f32) (h4 : a4.IsWhole)
    (a5 : Memref sig .tc .vmem S512x1 .f32) (h5 : a5.IsWhole) (a6 : Memref sig .tc .vmem S512x1 .f32) (h6 : a6.IsWhole)
    (hc0 : ¬cond0_0 i) (hc1 : cond0_1 i)
    (x0 : Vec F S512x1 .f32) (x1 : Vec F S1x2048 .f32) (x2 : Vec F S1x2048 .f32) (xs : Vec F S512x1 .f32) :
    out0_C_3 c i a2 h2 a3 h3 a4 h4 a5 h5 a6 h6 hc0 hc1 x0 x1 x2 xs = k0_pay2 x0 x1 x2 xs := by
  unfold out0_C_3
  rw [View.read_writes_eq_canon _ _ _ (cover0_C_3 c i a2 h2 a3 h3 a4 h4 a5 h5 a6 h6 hc0 hc1 x0 x1 x2 xs)]
  unfold kernelRun0_C
  dsimp only
  sl_unfold_words
  rw [View.canon_unit_zero hz]
  simp only [View.readAt_eq_ld, h2.read_unread, h3.read_unread, h4.read_unread, h6.read_unread,
    View.readCov_unit_zero (S := S512x1) _ hz,
    View.ld_unit_zero (S := S512x1) hz, View.ld_unit_zero (S := S1x2048) hz]

end Cert.KernelIdeal.Pieces

end
-- ==== Proof.Spec.lean ====
/-
  The mathematics of the Cox risk sum, with no program in sight.

  For observed times `t` and weights `e` (both sequences of extended reals), the risk sum of row `r` is
  `∑ₖ 1[t k ≥ t r] · e k` over the 16384 columns. The kernel reaches it in eight steps of 2048 columns each, adding one
  block's partial sum to a running total; addition of extended reals is commutative and associative, so the eight
  partial sums regroup into the one sum over all columns, infinities or not.
-/
import Idealize.ShloMosaic.PureOps.Ideal
import Idealize.ShloMosaic.PureOps.Ideal.Laws
import Idealize.ShloMosaic.Lib.ValueIdx

noncomputable section

namespace Cert.CoxRisk

open Idealize.ShloMosaic

/-- One bit read as a number: widened to 32 bits and converted as a signed integer, or converted directly as an
    unsigned one, it is `0` or `1` either way. -/
theorem indicator_eq (b : BitVec 1) :
    FloatOps.sitofp (F := Ideal) .f32 (b.setWidth 32) = FloatOps.uitofp (F := Ideal) .f32 b := by
  have h : (b.setWidth 32).toInt = (b.toNat : ℤ) := by revert b; decide
  show (((b.setWidth 32).toInt : ℝ) : EReal) = ((b.toNat : ℝ) : EReal)
  rw [h, Int.cast_natCast]

/-- Column `k`'s contribution to row `r`'s risk sum: `e k` when the column's time is at least the row's, else `0`.
    The row's time is read from `tc` and the column's from `tr` (the same sequence laid out as a column and as a row). -/
def weight (tc tr e : ℕ → EReal) (r k : ℕ) : EReal :=
  FloatOps.uitofp (F := Ideal) .f32 (FloatOps.cmpf (F := Ideal) (φ := .f32) .oge (tr k) (tc r)) * e k

/-- The partial sum of row `r` over the `j`-th block of 2048 columns. -/
def blockSum (tc tr e : ℕ → EReal) (r j : ℕ) : EReal :=
  ∑ l : Fin 2048, weight tc tr e r (2048 * j + l.val)

/-- The running total of row `r` after its first `n` column blocks. -/
def partialRisk (tc tr e : ℕ → EReal) (r n : ℕ) : EReal :=
  ∑ j ∈ Finset.range n, blockSum tc tr e r j

theorem partialRisk_one (tc tr e : ℕ → EReal) (r : ℕ) :
    partialRisk tc tr e r 1 = blockSum tc tr e r 0 := Finset.sum_range_one _

theorem partialRisk_succ (tc tr e : ℕ → EReal) (r n : ℕ) :
    partialRisk tc tr e r (n + 1) = partialRisk tc tr e r n + blockSum tc tr e r n := Finset.sum_range_succ _ _

/-- Eight blocks of 2048 columns are all 16384 columns: the running total after the eighth block is the whole risk sum. -/
theorem partialRisk_eight (tc tr e : ℕ → EReal) (r : ℕ) :
    partialRisk tc tr e r 8 = ∑ k : Fin 16384, weight tc tr e r k.val := by
  unfold partialRisk blockSum
  rw [Finset.sum_range, ← Fintype.sum_prod_type']
  refine Fintype.sum_equiv (finProdFinEquiv : Fin 8 × Fin 2048 ≃ Fin 16384) _ _ fun x => ?_
  rw [finProdFinEquiv_apply_val, Nat.add_comm]

end Cert.CoxRisk

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.PayloadAt.lean ====
/-
  The body's arithmetic at one entry, over the extended reals. The payload the body stores into the running total is,
  at row `p` of the block, what the total held there plus the sum over the block's 2048 lanes of the lane's weight
  where the lane's time is at least the row's: the compare's bit, widened and converted, is the indicator
  (`Cert.CoxRisk.indicator_eq`); the lane reduction is a plain sum at the ideal values; the row and the column are
  broadcast to the `[512, 2048]` tile, each read back at its own coordinate.
-/
import proofs.«103979_j36077725286567_1_alg».proof.Proof.Gen.KernelIdeal.Skeleton
import proofs.«103979_j36077725286567_1_alg».proof.Proof.Spec
import proofs.«103979_j36077725286567_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-- The reset's payload is the zero block. -/
theorem pay1_apply (j : S512x1.Idx) : k0_pay1 (F := Ideal) j = 0 := by
  unfold k0_pay1
  rw [shapeCast_self]
  exact Ideal.ofBits_zero_f32

/-- The lane reduction of a `[512, 2048]` tile at row `p` is the sum over the row's lanes. -/
theorem laneSum_apply (src : FVec Ideal S512x2048 .f32) (hφ : FKind.Formats .f32)
    (hacc : (0x00000000#32 : BitVec 32) = FKind.add.neutral .f32 hφ) (p : Fin 512) :
    multiReduction .add [1] S512 src 0x00000000#32 reduces_S512x2048_S512 hφ hacc (ix1 p)
      = ∑ l : Fin 2048, src (ix2 p l) := by
  refine (Ideal.multiReduction_add_single src 0x00000000#32 reduces_S512x2048_S512 hφ hacc (ix1 p)).trans ?_
  refine Finset.sum_congr rfl fun l _ => congrArg src ?_
  exact funext fun a => Fin.ext (by match a with | ⟨0, _⟩ => rfl | ⟨1, _⟩ => rfl)

/-- The update's payload at row `p`: the running total there, plus the block's lane weights summed over the lanes whose
    time is at least the row's. -/
theorem pay2_apply (v3 v14 : Vec Ideal S512x1 .f32) (v5 v7 : Vec Ideal S1x2048 .f32) (p : Fin 512) :
    k0_pay2 (F := Ideal) v3 v5 v7 v14 (ix2 p (0 : Fin 1))
      = v14 (ix2 p (0 : Fin 1)) + ∑ l : Fin 2048,
          FloatOps.uitofp (F := Ideal) .f32
            (FloatOps.cmpf (F := Ideal) (φ := .f32) .oge (v5 (ix2 (0 : Fin 1) l)) (v3 (ix2 p (0 : Fin 1))))
          * v7 (ix2 (0 : Fin 1) l) := by
  unfold k0_pay2
  dsimp only
  simp only [shapeCast_self]
  rw [addf_apply]
  refine congrArg (v14 (ix2 p (0 : Fin 1)) + ·) ?_
  refine (Cert.LibKeepdims.shapeCast_a_a1_apply _ shapeCasts_S512_S512x1 p (0 : Fin 1)).trans ?_
  refine (laneSum_apply _ _ _ p).trans ?_
  refine Finset.sum_congr rfl fun l _ => ?_
  rw [mulf_apply, sitofp_apply, extui_apply, cmpf_apply, broadcastTo_1b_ab_apply, broadcastTo_1b_ab_apply,
    Cert.LibKeepdims.broadcastTo_a1_ab_apply, Cert.CoxRisk.indicator_eq]

end Cert.KernelIdeal.Payload

end
-- ==== Proof.Accumulate.lean ====
/-
  The running total, point by point. Grid point `t` (of 256, row-major over 32 row blocks × 8 column blocks) works on
  rows `512·(t/8) … 512·(t/8)+511` and columns `2048·(t%8) … 2048·(t%8)+2047`. By induction on the point, after
  point `t` the scratch column holds, at row `p` of the block, the risk sum of row `512·(t/8)+p` over its first
  `t%8 + 1` column blocks; the output block written at the last point of a grid row is that total after all eight.
-/
import proofs.«103979_j36077725286567_1_alg».proof.Proof.Pieces
import proofs.«103979_j36077725286567_1_alg».proof.Proof.PayloadAt

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.CoxRisk

variable (m : (ℓ : Loc nD τ sig) → Buf (Elt Ideal) ℓ)

/-- The three arrays the region reads, as it finds them: the times as a column, the times as a row, the weights as a row. -/
abbrev timesCol (c : Dev nD) : Vec Ideal S16384x1 .f32 := V m c main_v5
abbrev timesRow (c : Dev nD) : Vec Ideal S1x16384 .f32 := V m c main_v6
abbrev weightsRow (c : Dev nD) : Vec Ideal S1x16384 .f32 := V m c main_v7

/-- A column array and a row array as sequences (zero past the end, which nothing reads). -/
def colSeq (A : Vec Ideal S16384x1 .f32) (n : ℕ) : EReal := if h : n < 16384 then A (ix2 ⟨n, h⟩ (0 : Fin 1)) else 0
def rowSeq (A : Vec Ideal S1x16384 .f32) (n : ℕ) : EReal := if h : n < 16384 then A (ix2 (0 : Fin 1) ⟨n, h⟩) else 0

/-- Where each window's block sits at point `t`: row block `t / 8` of the column, column block `t % 8` of the rows. -/
theorem index_col : ∀ t : Fin cfg0.N, win0_0.index t 0 = t.val / 8 ∧ win0_0.index t 1 = 0 :=
  (by decide +kernel : ∀ t : Fin grid0.N, _)
theorem index_trow : ∀ t : Fin cfg0.N, win0_1.index t 0 = 0 ∧ win0_1.index t 1 = t.val % 8 :=
  (by decide +kernel : ∀ t : Fin grid0.N, _)
theorem index_wrow : ∀ t : Fin cfg0.N, win0_2.index t 0 = 0 ∧ win0_2.index t 1 = t.val % 8 :=
  (by decide +kernel : ∀ t : Fin grid0.N, _)

/-- The column block at point `t`, row `p`: the time of row `512·(t/8) + p`. -/
theorem colBlk_apply (c : Dev nD) (t : Fin cfg0.N) (p : Fin 512) :
    (iblk m c 0 t : Vec Ideal S512x1 .f32) (ix2 p (0 : Fin 1)) = colSeq (timesCol m c) (512 * (t.val / 8) + p.val) := by
  have hN : t.val < 256 := lt_of_lt_of_eq t.isLt (show cfg0.N = 256 from N_0)
  have hlt : 512 * (t.val / 8) + p.val < 16384 := by have := p.isLt; omega
  unfold colSeq
  rw [dif_pos hlt]
  unfold iblk
  rw [View.read_apply]
  show V m c main_v5 _ = V m c main_v5 _
  congr 1
  funext a
  apply Fin.ext
  match a with
  | ⟨0, _⟩ => show win0_0.index t 0 * 512 + 1 * p.val = 512 * (t.val / 8) + p.val; rw [(index_col t).1]; omega
  | ⟨1, _⟩ => show win0_0.index t 1 * 1 + 1 * 0 = 0; rw [(index_col t).2]

/-- The row blocks at point `t`, lane `l`: column `2048·(t%8) + l` of the times and of the weights. -/
theorem trowBlk_apply (c : Dev nD) (t : Fin cfg0.N) (l : Fin 2048) :
    (iblk m c 1 t : Vec Ideal S1x2048 .f32) (ix2 (0 : Fin 1) l) = rowSeq (timesRow m c) (2048 * (t.val % 8) + l.val) := by
  have hlt : 2048 * (t.val % 8) + l.val < 16384 := by have := l.isLt; omega
  unfold rowSeq
  rw [dif_pos hlt]
  unfold iblk
  rw [View.read_apply]
  show V m c main_v6 _ = V m c main_v6 _
  congr 1
  funext a
  apply Fin.ext
  match a with
  | ⟨0, _⟩ => show win0_1.index t 0 * 1 + 1 * 0 = 0; rw [(index_trow t).1]
  | ⟨1, _⟩ => show win0_1.index t 1 * 2048 + 1 * l.val = 2048 * (t.val % 8) + l.val; rw [(index_trow t).2]; omega

theorem wrowBlk_apply (c : Dev nD) (t : Fin cfg0.N) (l : Fin 2048) :
    (iblk m c 2 t : Vec Ideal S1x2048 .f32) (ix2 (0 : Fin 1) l) = rowSeq (weightsRow m c) (2048 * (t.val % 8) + l.val) := by
  have hlt : 2048 * (t.val % 8) + l.val < 16384 := by have := l.isLt; omega
  unfold rowSeq
  rw [dif_pos hlt]
  unfold iblk
  rw [View.read_apply]
  show V m c main_v7 _ = V m c main_v7 _
  congr 1
  funext a
  apply Fin.ext
  match a with
  | ⟨0, _⟩ => show win0_2.index t 0 * 1 + 1 * 0 = 0; rw [(index_wrow t).1]
  | ⟨1, _⟩ => show win0_2.index t 1 * 2048 + 1 * l.val = 2048 * (t.val % 8) + l.val; rw [(index_wrow t).2]; omega

/-- The payload of point `t` over a running total `acc`, at row `p`: the total there plus the partial sum of row
    `512·(t/8) + p` over column block `t % 8`. -/
theorem pay_at (c : Dev nD) (t : Fin cfg0.N) (acc : Vec Ideal S512x1 .f32) (p : Fin 512) :
    k0_pay2 (F := Ideal) (iblk m c 0 t) (iblk m c 1 t) (iblk m c 2 t) acc (ix2 p (0 : Fin 1))
      = acc (ix2 p (0 : Fin 1))
        + blockSum (colSeq (timesCol m c)) (rowSeq (timesRow m c)) (rowSeq (weightsRow m c)) (512 * (t.val / 8) + p.val) (t.val % 8) := by
  refine (Payload.pay2_apply (iblk m c 0 t) acc (iblk m c 1 t) (iblk m c 2 t) p).trans ?_
  refine congrArg (acc (ix2 p (0 : Fin 1)) + ·) ?_
  unfold blockSum weight
  refine Finset.sum_congr rfl fun l _ => ?_
  rw [colBlk_apply, trowBlk_apply, wrowBlk_apply]

/-- The running total after point `n`. -/
theorem scratch_eq (c : Dev nD) : ∀ (n : ℕ) (h : n < cfg0.N) (p : Fin 512),
    (outsAt0 m c n h).2 (ix2 p (0 : Fin 1))
      = partialRisk (colSeq (timesCol m c)) (rowSeq (timesRow m c)) (rowSeq (weightsRow m c)) (512 * (n / 8) + p.val) (n % 8 + 1) := by
  intro n
  induction n using Nat.strong_induction_on with
  | _ n ih =>
    intro h p
    let t : Fin cfg0.N := ⟨n, h⟩
    show (outsAt0 m c t.val t.isLt).2 (ix2 p (0 : Fin 1)) = _
    by_cases h0 : t.val % 8 = 0
    · have h1 : ¬t.val % 8 = 7 := by omega
      rw [outsAt0_A m c t h0 h1]
      dsimp only
      refine (congrFun (Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p (0 : Fin 1))).trans ?_
      rw [pay_at, Payload.pay1_apply, zero_add, show n % 8 = 0 from h0, partialRisk_one]
    · have hn : n ≠ 0 := fun e => h0 (by show n % 8 = 0; rw [e])
      have ihp := ih (n - 1) (by omega) (Nat.lt_of_le_of_lt (Nat.sub_le _ _) h) p
      have e1 : (n - 1) / 8 = n / 8 := by have : n % 8 ≠ 0 := h0; omega
      have e2 : (n - 1) % 8 + 1 = n % 8 := by have : n % 8 ≠ 0 := h0; omega
      rw [e1, e2] at ihp
      by_cases h1 : t.val % 8 = 7
      · rw [outsAt0_C m c t h0 h1]
        dsimp only
        refine (congrFun (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p (0 : Fin 1))).trans ?_
        rw [pay_at, partialRisk_succ]
        exact congrArg (· + _) ihp
      · rw [outsAt0_B m c t h0 h1]
        dsimp only
        refine (congrFun (Pieces.scratch_mid (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 p (0 : Fin 1))).trans ?_
        rw [pay_at, partialRisk_succ]
        exact congrArg (· + _) ihp

/-- The output block written at the last point of a grid row: the whole risk sum of each of its rows. -/
theorem out_eq (c : Dev nD) (t : Fin cfg0.N) (h1 : t.val % 8 = 7) (p : Fin 512) :
    (outsAt0 m c t.val t.isLt).1 (ix2 p (0 : Fin 1))
      = ∑ k : Fin 16384, weight (colSeq (timesCol m c)) (rowSeq (timesRow m c)) (rowSeq (weightsRow m c)) (512 * (t.val / 8) + p.val) k.val := by
  have h0 : ¬t.val % 8 = 0 := by omega
  have hs := scratch_eq m c t.val t.isLt p
  rw [outsAt0_C m c t h0 h1] at hs ⊢
  dsimp only at hs ⊢
  rw [Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2] at hs
  rw [Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]
  rw [hs, h1, partialRisk_eight]

end Cert.KernelIdeal.Acc

end
-- ==== Proof.Region.lean ====
/-
  The region's result array. The output column `[16384, 1]` is written back once per grid row, at its last point,
  one block of 512 rows each; the 32 blocks tile the column, and each holds its rows' whole risk sums. So after the
  region the column holds, at row `r`, `∑ₖ 1[t k ≥ t r] · e k` over all 16384 columns.
-/
import proofs.«103979_j36077725286567_1_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.CoxRisk Cert.KernelIdeal.Acc

variable (m : (ℓ : Loc nD τ sig) → Buf (Elt Ideal) ℓ) (ρ : Dev nD → PrngReg)

/-- The whole risk sum of row `r`, over the arrays the region reads: `∑ₖ weight r k`. -/
def riskAt (c : Dev nD) (r : ℕ) : EReal :=
  ∑ k : Fin 16384, weight (colSeq (timesCol m c)) (rowSeq (timesRow m c)) (rowSeq (weightsRow m c)) r k.val

/-- The whole risk sums as a column. -/
def riskCol (c : Dev nD) : Vec Ideal S16384x1 .f32 := fun i => riskAt m c (i 0).val

theorem riskCol_apply (c : Dev nD) (r : Fin 16384) (u : Fin 1) : riskCol m c (ix2 r u) = riskAt m c r.val := rfl

/-- The output's block at point `t` is row block `t / 8` of the column. -/
theorem index_out : ∀ t : Fin cfg0.N, win0_3.index t 0 = t.val / 8 ∧ win0_3.index t 1 = 0 :=
  (by decide +kernel : ∀ t : Fin grid0.N, _)

/-- What a flushing point writes back is its block of the risk column. -/
theorem flushed_eq (c : Dev nD) (t : Fin cfg0.N) (hf : (cfg0.win 3).flush t = true) :
    (dats m 0 c).flushed 3 t = ((cfg0.win 3).blk t).view.read (Elt Ideal) (riskCol m c) := by
  have h7 : t.val % 8 = 7 := (flush0_3 t).mp hf
  show (cfg0.win 3).cut (grid0.coords t) ((dats m 0 c).after 3 t) = _
  rw [after0_3]
  funext y
  obtain ⟨p, u, rfl⟩ : ∃ (p : Fin 512) (u : Fin 1), y = ix2 p u := ⟨y 0, y 1, eq_ix2 y⟩
  obtain rfl : u = 0 := Subsingleton.elim _ _
  rw [View.read_apply, cast_eq]
  have he : 512 * (t.val / 8) + p.val = ((((cfg0.win 3).blk t).view.emb (ix2 p (0 : Fin 1))) (0 : Fin 2)).val := by
    show _ = win0_3.index t 0 * 512 + 1 * p.val
    rw [(index_out t).1]; omega
  exact (Acc.out_eq m c t h7 p).trans (congrArg (riskAt m c) he)

/-- An index of the column is in point `t`'s block iff each coordinate is in the block's range on its axis. -/
theorem mem_blk (t : Fin cfg0.N) (i : S16384x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v8).slice (win0_3.rect t)).set ↔ _
  rw [View.set_slice_whole, Rect.mem_set_unit]
  exact Iff.rfl

/-- Row `r` is written back by the last point of grid row `r / 512`. -/
theorem cover (i : S16384x1.Idx) : ∃ t : Fin cfg0.N, (cfg0.win 3).flush t = true ∧ i ∈ ((cfg0.win 3).blk t).view.set := by
  have hi0 : (i 0).val < 16384 := (i 0).isLt
  have hi1 : (i 1).val < 1 := (i 1).isLt
  have hN : cfg0.N = 256 := N_0
  let t : Fin cfg0.N := ⟨8 * ((i 0).val / 512) + 7, by rw [hN]; omega⟩
  have ht : t.val = 8 * ((i 0).val / 512) + 7 := rfl
  refine ⟨t, (flush0_3 t).mpr (by rw [ht]; omega), ?_⟩
  rw [mem_blk]
  intro a
  match a with
  | ⟨0, _⟩ => show win0_3.index t 0 * 512 ≤ (i 0).val ∧ (i 0).val < win0_3.index t 0 * 512 + 512
              rw [(index_out t).1, ht]; omega
  | ⟨1, _⟩ => show win0_3.index t 1 * 1 ≤ (i 1).val ∧ (i 1).val < win0_3.index t 1 * 1 + 1
              rw [(index_out t).2]; omega

/-- After the region the output column holds the whole risk sums. -/
theorem final (c : Dev nD) : (dats m 0 c).arrAt 3 cfg0.N = riskCol m c :=
  (dats m 0 c).arrAt_eq_of_cover 3 (riskCol m c) (flushed_eq m c) cover

end Cert.KernelIdeal.Region

end
-- ==== Proof.Loss.lean ====
/-
  From the risk sums to the loss, with no program in sight: both programs end with the same host operations,
  `loss = -(∑ᵢ (θᵢ - log riskᵢ) · eventᵢ) / 16384`, so the loss is ONE function of the risk sums, the scores `θ` and
  the event indicators. Two programs whose risk sums agree entry by entry therefore agree on the loss; the function
  is never opened.
-/
import Idealize.ShloMosaic.PureOps.Ideal
import Idealize.ShloMosaic.Lib.ValueIdx

noncomputable section

namespace Cert.CoxRisk

open Idealize.ShloMosaic

/-- A vector of 16384 entries as a sequence (zero past the end, which nothing reads). -/
def vecSeq (x : (⟨1, ![16384]⟩ : Shape).Idx → EReal) (n : ℕ) : EReal :=
  if h : n < 16384 then x (ValueIdx.ix1 ⟨n, h⟩) else 0

/-- The negated mean of `(θ - log risk) · event` over the 16384 rows, as the host computes it. -/
def lossOf (hr : (⟨1, ![16384]⟩ : Shape).ReducesTo [0] ⟨0, ![]⟩) (h0 : 0 < (⟨0, ![]⟩ : Shape).numel)
    (risk theta event : FVec Ideal ⟨1, ![16384]⟩ .f32) : FVec Ideal ⟨0, ![]⟩ .f32 :=
  Host.negf (F := Ideal) (Host.divf (F := Ideal)
    (Host.reduceAdd (F := Ideal) (mulf (subf theta (Host.log (F := Ideal) risk)) event)
      (constant (F := Ideal) ⟨0, ![]⟩ .f32 0x00000000#32) hr h0)
    (constant (F := Ideal) ⟨0, ![]⟩ .f32 0x46800000#32))

end Cert.CoxRisk

end
-- ==== Proof.Whole.lean ====
/-
  The whole kernel program. Before the region the host lays the times `|y|` out as a column and as a row and the weights
  `exp ŷ` as a row (three reshapes of 16384 entries), and computes the event indicators; after it, the host reshapes
  the risk column back to a vector and takes the loss. So the program's result is the loss of the risk sums
  `∑ₖ 1[|y|ₖ ≥ |y|_r] · exp ŷₖ`, the scores `ŷ` and the event indicators.
-/
import proofs.«103979_j36077725286567_1_alg».proof.Proof.Region
import proofs.«103979_j36077725286567_1_alg».proof.Proof.Loss
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.CoxRisk Cert.KernelIdeal.Acc Cert.KernelIdeal.Region

variable (m : (ℓ : Loc nD τ sig) → Buf (Elt Ideal) ℓ) (ρ : Dev nD → PrngReg)

/-- The scores and the signed times, as launched. -/
abbrev scores (c : Dev nD) : FVec Ideal S16384 .f32 := m ((c : Thread nD τ).loc main_arg0)
abbrev signedTimes (c : Dev nD) : FVec Ideal S16384 .f32 := m ((c : Thread nD τ).loc main_arg1)

/-- What the host writes before the region: the three laid-out arrays and the event indicators. -/
theorem timesCol_eq (c : Dev nD) :
    timesCol m c = shapeCast S16384x1 (Host.absf (F := Ideal) (φ := .f32) (signedTimes m c)) shapeCasts_S16384_S16384x1 := by
  show StableHlo.after hostOps0 (fun b => m (c, b)) (Proc.devRef .tc main_v5) = _
  after_results
  rfl

theorem timesRow_eq (c : Dev nD) :
    timesRow m c = shapeCast S1x16384 (Host.absf (F := Ideal) (φ := .f32) (signedTimes m c)) shapeCasts_S16384_S1x16384 := by
  show StableHlo.after hostOps0 (fun b => m (c, b)) (Proc.devRef .tc main_v6) = _
  after_results
  rfl

theorem weightsRow_eq (c : Dev nD) :
    weightsRow m c = shapeCast S1x16384 (Host.exp (F := Ideal) (φ := .f32) (scores m c)) shapeCasts_S16384_S1x16384 := by
  show StableHlo.after hostOps0 (fun b => m (c, b)) (Proc.devRef .tc main_v7) = _
  after_results
  rfl

/-- The event indicators: `1` where the signed time is positive. -/
abbrev events (c : Dev nD) : FVec Ideal S16384 .f32 :=
  uitofp .f32 (cmpf .ogt (signedTimes m c) (broadcastInDim S16384 ![] bcast_S_S16384 (constant (F := Ideal) S_ .f32 0x00000000#32)))

theorem events_eq (c : Dev nD) : (V m c main_v3 : FVec Ideal S16384 .f32) = events m c := by
  show StableHlo.after hostOps0 (fun b => m (c, b)) (Proc.devRef .tc main_v3) = _
  after_results

/-- The three laid-out arrays as sequences are the times `|y|` (twice) and the weights `exp ŷ`. -/
theorem colSeq_times (c : Dev nD) :
    colSeq (timesCol m c) = vecSeq (Host.absf (F := Ideal) (φ := .f32) (signedTimes m c)) := by
  funext n
  unfold colSeq vecSeq
  by_cases h : n < 16384
  · rw [dif_pos h, dif_pos h, timesCol_eq]
    exact Cert.LibKeepdims.shapeCast_a_a1_apply _ _ ⟨n, h⟩ (0 : Fin 1)
  · rw [dif_neg h, dif_neg h]

theorem rowSeq_times (c : Dev nD) :
    rowSeq (timesRow m c) = vecSeq (Host.absf (F := Ideal) (φ := .f32) (signedTimes m c)) := by
  funext n
  unfold rowSeq vecSeq
  by_cases h : n < 16384
  · rw [dif_pos h, dif_pos h, timesRow_eq]
    exact shapeCast_a_1a_apply _ _ (0 : Fin 1) ⟨n, h⟩
  · rw [dif_neg h, dif_neg h]

theorem rowSeq_weights (c : Dev nD) :
    rowSeq (weightsRow m c) = vecSeq (Host.exp (F := Ideal) (φ := .f32) (scores m c)) := by
  funext n
  unfold rowSeq vecSeq
  by_cases h : n < 16384
  · rw [dif_pos h, dif_pos h, weightsRow_eq]
    exact shapeCast_a_1a_apply _ _ (0 : Fin 1) ⟨n, h⟩
  · rw [dif_neg h, dif_neg h]

/-- The risk column reshaped to a vector, at row `r`: the risk sum of row `r` over the launch contents. -/
theorem riskVec_apply (c : Dev nD) (r : Fin 16384) :
    shapeCast S16384 (riskCol m c) shapeCasts_S16384x1_S16384 (ix1 r)
      = ∑ k : Fin 16384, weight (vecSeq (Host.absf (F := Ideal) (φ := .f32) (signedTimes m c)))
          (vecSeq (Host.absf (F := Ideal) (φ := .f32) (signedTimes m c))) (vecSeq (Host.exp (F := Ideal) (φ := .f32) (scores m c))) r.val k.val := by
  rw [Cert.LibKeepdims.shapeCast_a1_a_apply, riskCol_apply]
  unfold riskAt
  rw [colSeq_times, rowSeq_times, rowSeq_weights]

/-- What the lines after the region leave in the result: the loss of the risk column (reshaped to a vector), the
    scores and the event indicators. -/
theorem result_eq (c : Dev nD) :
    Pipeline.afterTail₀ cfgs (dats m) 0 (V0 m) [hostOps1] c main_v15
      = lossOf reducesTo_S16384_S_d0 h_S_ (shapeCast S16384 (riskCol m c) shapeCasts_S16384x1_S16384) (scores m c) (events m c) := by
  unfold Pipeline.afterTail₀
  show StableHlo.after hostOps1 _ (Proc.devRef .tc main_v15) = _
  after_results
  have e8 : Pipeline.withArrays (cfgs 0).spec c (V0 m c) (fun w => (dats m 0 c).arrAt w (cfgs 0).N) (Proc.devRef .tc main_v8)
      = riskCol m c :=
    (Pipeline.withArrays_arr spec0 launch0.win.arr_inj c _ _ 3).trans (final m c)
  have e0 : Pipeline.withArrays (cfgs 0).spec c (V0 m c) (fun w => (dats m 0 c).arrAt w (cfgs 0).N) (Proc.devRef .tc main_arg0)
      = scores m c :=
    (Pipeline.withArrays_of_ne _ c (V0 m c) _ main_arg0 (by exact (by decide : ∀ w, Pipeline.arrRef spec0 w ≠ main_arg0))).trans
      (V_main_arg0 m c)
  have e3 : Pipeline.withArrays (cfgs 0).spec c (V0 m c) (fun w => (dats m 0 c).arrAt w (cfgs 0).N) (Proc.devRef .tc main_v3)
      = events m c :=
    (Pipeline.withArrays_of_ne _ c (V0 m c) _ main_v3 (by exact (by decide : ∀ w, Pipeline.arrRef spec0 w ≠ main_v3))).trans
      (events_eq m c)
  rw [e8, e0, e3]
  rfl

/-- The run, read: the result at the loss of the risk sums, the arguments unchanged. -/
theorem run : θ_run defs (onTc (τ := τ) (main (F := Ideal))) ⟨m, fun _ => 0, ρ⟩ fun r => ∀ c : Dev nD,
      r.2.mem ((c.tc : Thread nD τ).loc main_v15)
        = lossOf reducesTo_S16384_S_d0 h_S_ (shapeCast S16384 (riskCol m c) shapeCasts_S16384x1_S16384) (scores m c) (events m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.RefValue.lean ====
/-
  The reference's risk sums, read off its run one operation at a time: at row `r` the reduce over the `[16384, 16384]`
  product `exp θ ⊗ 1[t k ≥ t r]` is `0 + ∑ₖ exp θₖ · 1[tₖ ≥ t_r]`, which is the specification's sum with the factors of
  each product swapped; and the reference's result is the loss of those risk sums.
-/
import proofs.«103979_j36077725286567_1_alg».proof.Proof.Gen.ReferenceIdeal.Run
import proofs.«103979_j36077725286567_1_alg».proof.Proof.Gen.ReferenceIdeal.Read
import proofs.«103979_j36077725286567_1_alg».proof.Proof.Spec
import proofs.«103979_j36077725286567_1_alg».proof.Proof.Loss

noncomputable section

namespace Cert.ReferenceIdeal.RefValue

open Idealize.ShloMosaic Idealize.ShloMosaic.ValueIdx Cert.ReferenceIdeal Cert.ReferenceIdeal.Gen Cert.ReferenceIdeal.Read Cert.CoxRisk

/-- The reference's risk sum of row `r`: the sum over all columns of the column's weight where its time is at least the
    row's, times and weights being `|y|` and `exp ŷ`. -/
theorem risk_apply (x0 x1 : FVec Ideal S16384 .f32) (r : Fin 16384) :
    val_main_v14 (F := Ideal) x0 x1 (ix1 r)
      = ∑ k : Fin 16384, weight (vecSeq (Host.absf (F := Ideal) (φ := .f32) x1)) (vecSeq (Host.absf (F := Ideal) (φ := .f32) x1))
          (vecSeq (Host.exp (F := Ideal) (φ := .f32) x0)) r.val k.val := by
  rw [val_main_v14_apply, val_main_cst_0_apply]
  rw [show (FloatOps.ofBits (F := Ideal) .f32 0x00000000#32) = 0 from Ideal.ofBits_zero_f32, zero_add]
  refine Finset.sum_congr rfl fun k _ => ?_
  have ek : idx_main_v11 (idx_main_v12 (idx_main_v14 (ix1 r) k)) = ix1 k :=
    funext fun a => Fin.ext (by match a with | ⟨0, _⟩ => rfl)
  have etk : idx_main_v5 (idx_main_v7 (idx_main_v14 (ix1 r) k)) = ix1 k :=
    funext fun a => Fin.ext (by match a with | ⟨0, _⟩ => rfl)
  have etr : idx_main_v6 (idx_main_v8 (idx_main_v14 (ix1 r) k)) = ix1 r :=
    funext fun a => Fin.ext (by match a with | ⟨0, _⟩ => rfl)
  rw [val_main_v13_apply, val_main_v12_apply, val_main_v11_apply, val_main_v10_apply, val_main_v9_apply,
    val_main_v7_apply, val_main_v8_apply, val_main_v5_apply, val_main_v6_apply, ek, etk, etr]
  unfold weight vecSeq
  simp only [dif_pos k.isLt, dif_pos r.isLt]
  show (val_main_v4 (F := Ideal) x0 (ix1 k) : EReal) * _ = _
  exact mul_comm _ _

/-- The reference's result is the loss of its risk sums. -/
theorem result_eq (x0 x1 : FVec Ideal S16384 .f32) :
    val_main_v20 (F := Ideal) x0 x1
      = lossOf reducesTo_S16384_S_d0 h_S_ (val_main_v14 (F := Ideal) x0 x1) x0 (val_main_v3 (F := Ideal) x1) := rfl

end Cert.ReferenceIdeal.RefValue

end
-- ==== Proof.lean ====
/-
  The Cox partial-likelihood loss: `loss = -(1/16384) ∑ᵢ (ŷᵢ - log riskᵢ) · 1[yᵢ > 0]` with the risk sums
  `riskᵢ = ∑ₖ 1[|y|ₖ ≥ |y|ᵢ] · exp ŷₖ`.

  The kernel computes the risk sums on a 32 × 8 grid: each row of the grid handles 512 rows `i`, each of its eight
  points one block of 2048 columns `k`, the block's partial sums added to a running total that is reset at the first
  point of the grid row and written out at the last. The reference forms the whole `[16384, 16384]` product and sums
  each row at once. Over the extended reals the two agree: addition is commutative and associative, so the eight
  partial sums regroup into the one sum (Spec.lean); each term's two factors are swapped (commutativity of the
  product); and the compare's bit read as a number is `0` or `1` by either conversion. No law that fails at an
  infinity is used, so the precondition is never opened. The lines that turn the risk sums into the loss are the same
  in both programs and are carried as one function (Loss.lean).

  The kernel's and its idealization's frames are the generated ones; the reference's frame is its generated run with
  the result dropped; nothing was rewritten by the idealization, so `preserves` is trivial.
-/
import proofs.«103979_j36077725286567_1_alg».proof.Defs
import proofs.«103979_j36077725286567_1_alg».proof.Proof.Gen.Kernel
import proofs.«103979_j36077725286567_1_alg».proof.Proof.Gen.Kernel.Skeleton
import proofs.«103979_j36077725286567_1_alg».proof.Proof.Gen.Kernel.Launch
import proofs.«103979_j36077725286567_1_alg».proof.Proof.Gen.Kernel.Points
import proofs.«103979_j36077725286567_1_alg».proof.Proof.Gen.Kernel.Frame
import proofs.«103979_j36077725286567_1_alg».proof.Proof.Gen.KernelIdeal
import proofs.«103979_j36077725286567_1_alg».proof.Proof.Gen.KernelIdeal.Skeleton
import proofs.«103979_j36077725286567_1_alg».proof.Proof.Gen.KernelIdeal.Launch
import proofs.«103979_j36077725286567_1_alg».proof.Proof.Gen.KernelIdeal.Points
import proofs.«103979_j36077725286567_1_alg».proof.Proof.Gen.KernelIdeal.Frame
import proofs.«103979_j36077725286567_1_alg».proof.Proof.Gen.ReferenceIdeal
import proofs.«103979_j36077725286567_1_alg».proof.Proof.Gen.ReferenceIdeal.Run
import proofs.«103979_j36077725286567_1_alg».proof.Proof.Gen.ReferenceIdeal.Read
import proofs.«103979_j36077725286567_1_alg».proof.Proof.Gen.Pre_finite_inputs
import proofs.«103979_j36077725286567_1_alg».proof.Proof.Whole
import proofs.«103979_j36077725286567_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs' risk sums are the same function of the launch contents: at row `r`, the specification's sum. -/
theorem risk_eq (m : (ℓ : Loc Cert.KernelIdeal.nD Cert.KernelIdeal.τ Cert.KernelIdeal.sig) → Buf (Elt Ideal) ℓ)
    (c : Dev Cert.KernelIdeal.nD) :
    Cert.ReferenceIdeal.Read.val_main_v14 (F := Ideal) (Cert.KernelIdeal.Whole.scores m c) (Cert.KernelIdeal.Whole.signedTimes m c)
      = shapeCast Cert.KernelIdeal.S16384 (Cert.KernelIdeal.Region.riskCol m c) Cert.KernelIdeal.Gen.shapeCasts_S16384x1_S16384 := by
  funext i
  obtain ⟨r, rfl⟩ : ∃ r : Fin 16384, i = ix1 r := ⟨i 0, eq_ix1 i⟩
  rw [Cert.ReferenceIdeal.RefValue.risk_apply, Cert.KernelIdeal.Whole.riskVec_apply]

/-- The kernel's result is the loss of its risk sums and the reference's the loss of its own, of arguments that agree:
    one function of equal risk sums, the same scores and the same event indicators. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v20_eq, Cert.ReferenceIdeal.RefValue.result_eq]
  exact congrArg (fun risk => Cert.CoxRisk.lossOf Cert.KernelIdeal.Gen.reducesTo_S16384_S_d0 Cert.KernelIdeal.Gen.h_S_ risk
    (Cert.KernelIdeal.Whole.scores m c) (Cert.KernelIdeal.Whole.events m c)) (risk_eq m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
